-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x384 : Shape := ⟨2, ![128, 384]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x384 : S_.BroadcastsInDim S128x384 (![] : Fin 0 → Fin S128x384.rank)
  reducesTo_S128x384_S_d0_1 : S128x384.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S50000x128 .f32) (main_arg1 : IVec S2x800000 32) (main_arg2 : FVec F S128x384 .f32) (main_arg3 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x384 .f32 := Host.absf main_arg2
  let main_cst_0 : FVec F S_ .f32 := constant S_ .f32 0x7F800000#32
  let main_v5 : FVec F S128x384 .f32 := broadcastInDim S128x384 ![] bcast_S_S128x384 main_cst_0
  let main_v6 : IVec S128x384 1 := cmpf .olt main_v4 main_v5
  let main_c_1 : IVec S_ 1 := constantI S_ 1 1#1
  let main_v7 : IVec S_ 1 := (fun x v => Host.reduce IntOp.andi x v reducesTo_S128x384_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S50000x128 : Shape := ⟨2, ![50000, 128]⟩
abbrev S2x800000 : Shape := ⟨2, ![2, 800000]⟩
abbrev S128x384 : Shape := ⟨2, ![128, 384]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S50000x384 : Shape := ⟨2, ![50000, 384]⟩
abbrev S384x128 : Shape := ⟨2, ![384, 128]⟩
abbrev S1x128 : Shape := ⟨2, ![1, 128]⟩
abbrev S5000x384 : Shape := ⟨2, ![5000, 384]⟩
abbrev S5000x128 : Shape := ⟨2, ![5000, 128]⟩

abbrev nBuf : Space → Nat
  | .hbm => 55
  | .vmem => 6
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x384, .f32⟩
  | .hbm, ⟨3, _⟩ => ⟨S128, .f32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S_, .f32⟩
  | .hbm, ⟨9, _⟩ => ⟨S800000, .f32⟩
  | .hbm, ⟨10, _⟩ => ⟨S_, .f32⟩
  | .hbm, ⟨11, _⟩ => ⟨S50000, .f32⟩
  | .hbm, ⟨12, _⟩ => ⟨S800000x1, .i32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000x1, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x128, .f32⟩
  | .hbm, ⟨30, _⟩ => ⟨S_, .f32⟩
  | .hbm, ⟨31, _⟩ => ⟨S50000x128, .f32⟩
  | .hbm, ⟨32, _⟩ => ⟨S800000x1, .i32⟩
  | .hbm, ⟨33, _⟩ => ⟨S50000x128, .f32⟩
  | .hbm, ⟨34, _⟩ => ⟨S50000x128, .f32⟩
  | .hbm, ⟨35, _⟩ => ⟨S50000x128, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x128, .f32⟩
  | .hbm, ⟨45, _⟩ => ⟨S_, .f32⟩
  | .hbm, ⟨46, _⟩ => ⟨S50000x128, .f32⟩
  | .hbm, ⟨47, _⟩ => ⟨S800000x1, .i32⟩
  | .hbm, ⟨48, _⟩ => ⟨S50000x128, .f32⟩
  | .hbm, ⟨49, _⟩ => ⟨S50000x128, .f32⟩
  | .hbm, ⟨50, _⟩ => ⟨S50000x128, .f32⟩
  | .hbm, ⟨51, _⟩ => ⟨S50000x384, .f32⟩
  | .hbm, ⟨52, _⟩ => ⟨S384x128, .f32⟩
  | .hbm, ⟨53, _⟩ => ⟨S1x128, .f32⟩
  | .hbm, ⟨54, _⟩ => ⟨S50000x128, .f32⟩
  | .local _ .vmem, ⟨0, _⟩ => ⟨S5000x384, .f32⟩
  | .local _ .vmem, ⟨1, _⟩ => ⟨S5000x384, .f32⟩
  | .local _ .vmem, ⟨2, _⟩ => ⟨S384x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_5 : Ref sig .tc := ⟨.hbm, 36, rfl⟩
abbrev main_v25 : Ref sig .tc := ⟨.hbm, 37, rfl⟩
abbrev main_v26 : Ref sig .tc := ⟨.hbm, 38, rfl⟩
abbrev main_c_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  concatenates_S50000x128_S50000x128_S50000x128_S50000x384_d1 : Shape.Concatenates [S50000x128, S50000x128, S50000x128] S50000x384 1
  transposes_S128x384_S384x128_1_0 : S128x384.Transposes [1, 0] S384x128
  shapeCasts_S128_S1x128 : S128.ShapeCasts S1x128
  inb_S5000x384_S5000x384_0_0 : ∀ a, (![0, 0] : Fin 2 → Nat) a + S5000x384.size a ≤ S5000x384.size a
  h_S5000x384 : 0 < S5000x384.numel
  shapeCasts_S5000x384_S5000x384 : S5000x384.ShapeCasts S5000x384
  bitsLt_bf16_f32 : FTy.bits .bf16 < FTy.bits .f32
  inb_S384x128_S384x128_0_0 : ∀ a, (![0, 0] : Fin 2 → Nat) a + S384x128.size a ≤ S384x128.size a
  h_S384x128 : 0 < S384x128.numel
  shapeCasts_S384x128_S384x128 : S384x128.ShapeCasts S384x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x384_S384x128_S5000x128_1_0_0_1_n_n_wf : DotDims.WF S5000x384 S384x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x384.size a ≤ S50000x384.size a
  hwx0_0 : ∀ i : grid0.Coords, EltTy.bits .f32 = 32 ∨ (Rect.block (s := S50000x384) S5000x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x128.size a ≤ S384x128.size a
  hwx0_1 : ∀ i : grid0.Coords, EltTy.bits .f32 = 32 ∨ (Rect.block (s := S384x128) S384x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x384_S384x128_S5000x128_1_0_0_1_n_n : DotDims S5000x384 S384x128 S5000x128 where
  lhsContracting := [1]
  rhsContracting := [0]
  lhsNonContracting := [0]
  rhsNonContracting := [1]
  lhsBatch := []
  rhsBatch := []
  wf := dot_S5000x384_S384x128_S5000x128_1_0_0_1_n_n_wf

abbrev win0_0 : Pipeline.Window sig grid0 :=
  Pipeline.Window.ofSpec (Memref.whole main_v37) S5000x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v38) S384x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v39) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v40) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x384 : Shape := ⟨2, ![128, 384]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x384 : Shape := ⟨2, ![50000, 384]⟩
abbrev S384x128 : Shape := ⟨2, ![384, 128]⟩
abbrev S1x128 : Shape := ⟨2, ![1, 128]⟩

abbrev nBuf : Space → Nat
  | .hbm => 64
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x384, .f32⟩
  | .hbm, ⟨3, _⟩ => ⟨S128, .f32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x128, .f32⟩
  | .hbm, ⟨17, _⟩ => ⟨S_, .f32⟩
  | .hbm, ⟨18, _⟩ => ⟨S50000x128, .f32⟩
  | .hbm, ⟨19, _⟩ => ⟨S800000x1, .i32⟩
  | .hbm, ⟨20, _⟩ => ⟨S50000x128, .f32⟩
  | .hbm, ⟨21, _⟩ => ⟨S_, .f32⟩
  | .hbm, ⟨22, _⟩ => ⟨S800000, .f32⟩
  | .hbm, ⟨23, _⟩ => ⟨S_, .f32⟩
  | .hbm, ⟨24, _⟩ => ⟨S50000, .f32⟩
  | .hbm, ⟨25, _⟩ => ⟨S800000x1, .i32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S50000x128, .f32⟩
  | .hbm, ⟨32, _⟩ => ⟨S50000x128, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x128, .f32⟩
  | .hbm, ⟨42, _⟩ => ⟨S_, .f32⟩
  | .hbm, ⟨43, _⟩ => ⟨S50000x128, .f32⟩
  | .hbm, ⟨44, _⟩ => ⟨S800000x1, .i32⟩
  | .hbm, ⟨45, _⟩ => ⟨S50000x128, .f32⟩
  | .hbm, ⟨46, _⟩ => ⟨S_, .f32⟩
  | .hbm, ⟨47, _⟩ => ⟨S800000, .f32⟩
  | .hbm, ⟨48, _⟩ => ⟨S_, .f32⟩
  | .hbm, ⟨49, _⟩ => ⟨S50000, .f32⟩
  | .hbm, ⟨50, _⟩ => ⟨S800000x1, .i32⟩
  | .hbm, ⟨51, _⟩ => ⟨S50000, .f32⟩
  | .hbm, ⟨52, _⟩ => ⟨S_, .f32⟩
  | .hbm, ⟨53, _⟩ => ⟨S50000, .f32⟩
  | .hbm, ⟨54, _⟩ => ⟨S50000, .f32⟩
  | .hbm, ⟨55, _⟩ => ⟨S50000x1, .f32⟩
  | .hbm, ⟨56, _⟩ => ⟨S50000x128, .f32⟩
  | .hbm, ⟨57, _⟩ => ⟨S50000x128, .f32⟩
  | .hbm, ⟨58, _⟩ => ⟨S50000x384, .f32⟩
  | .hbm, ⟨59, _⟩ => ⟨S384x128, .f32⟩
  | .hbm, ⟨60, _⟩ => ⟨S50000x128, .f32⟩
  | .hbm, ⟨61, _⟩ => ⟨S1x128, .f32⟩
  | .hbm, ⟨62, _⟩ => ⟨S50000x128, .f32⟩
  | .hbm, ⟨63, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_4 : Ref sig .tc := ⟨.hbm, 33, rfl⟩
abbrev main_v23 : Ref sig .tc := ⟨.hbm, 34, rfl⟩
abbrev main_v24 : Ref sig .tc := ⟨.hbm, 35, rfl⟩
abbrev main_c_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  concatenates_S50000x128_S50000x128_S50000x128_S50000x384_d1 : Shape.Concatenates [S50000x128, S50000x128, S50000x128] S50000x384 1
  transposes_S128x384_S384x128_1_0 : S128x384.Transposes [1, 0] S384x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x384_S384x128_S50000x128_1_0_0_1_n_n_wf : DotDims.WF S50000x384 S384x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x384_S384x128_S50000x128_1_0_0_1_n_n : DotDims S50000x384 S384x128 S50000x128 where
  lhsContracting := [1]
  rhsContracting := [0]
  lhsNonContracting := [0]
  rhsNonContracting := [1]
  lhsBatch := []
  rhsBatch := []
  wf := dot_S50000x384_S384x128_S50000x128_1_0_0_1_n_n_wf

class Facts : Prop extends Facts₀ where

variable [Facts]
-- ==== Proof.LinearRun.lean ====
/-
  The run of the program around its one tiled linear layer: fifty host operations build the
  concatenated features h = [x | P₁ | P₂] (50000 × 384), the transposed weights Wᵀ (384 × 128) and the bias as
  a row (1 × 128); then ten grid points each take 5000 rows of h, the whole of Wᵀ and the bias row, and write
  5000 rows of the result, h_blk · Wᵀ + bias.  Stated at any float instance.

  What is proved here: what every buffer holds when the tiled region is entered (`V`: the host operations
  folded over the launch memory, the four arguments untouched); what a point's body leaves in the result
  block as a function of the three blocks it reads (`outBlk`); and from these the run of the whole program,
  ending with the result array assembled from the ten blocks and every argument as it was launched.
-/
import proofs.«104381_j5179730559346_1_alg».proof.Proof.Gen.Kernel.Launch
import proofs.«104381_j5179730559346_1_alg».proof.Proof.Gen.Kernel.Skeleton
import proofs.«104381_j5179730559346_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Linear

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the tiled region -/

/-- What core `c`'s buffers hold when the tiled region is entered: the fifty host operations applied, in
    order, to the launch memory. -/
abbrev V (c : Dev nD) (b : Ref sig .tc) : Buf (Elt F) ((c : Thread nD τ).loc b) :=
  StableHlo.after hostOps0 (fun b => m (c, b)) b

/-- None of the host operations allocates a buffer. -/
theorem hostOps0_fresh : (hostOps0 : List (HloOp τ sig (Elt F))).Forall fun op => op.fresh = ∅ := by
  simp only [List.Forall]; repeat' constructor

/-- The program is its host operations followed by the tiled region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Every host operation writes one buffer of its own, never an argument: the node features are as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- The edge list is as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- The weights are as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- The bias is as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-! ## The blocks the grid points read -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The 5000 rows of features a point works on are in its buffer at every point. -/
theorem before_h_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The transposed weights, fetched once, stay in their buffer at every point. -/
theorem before_w_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The bias row, fetched once, stays in its buffer at every point. -/
theorem before_b_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The arguments after the run, from the run's post -/

/-- From a run that ends with every array of the region at the proof data's contents and every other buffer as
    the region found it, the four arguments end as launched: none is an array of the region, and no host
    operation wrote one. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-! ## What a point's body leaves in the result block -/

abbrev rH : Rect S5000x384 := Rect.unit (s := S5000x384) ![0, 0] S5000x384.size inb_S5000x384_S5000x384_0_0
abbrev rW : Rect S384x128 := Rect.unit (s := S384x128) ![0, 0] S384x128.size inb_S384x128_S384x128_0_0
abbrev rB : Rect S1x128 := Rect.unit (s := S1x128) ![0, 0] S1x128.size inb_S1x128_S1x128_0_0
abbrev rO : Rect S5000x128 := Rect.unit (s := S5000x128) ![0, 0] S5000x128.size inb_S5000x128_S5000x128_0_0

/-- The result block after the body: its one store, over the whole block, of the product of the feature rows
    with the transposed weights plus the bias row. -/
def outBlk (xh : Vec F S5000x384 .f32) (xw : Vec F S384x128 .f32) (xb : Vec F S1x128 .f32) : Vec F S5000x128 .f32 :=
  View.canon [⟨rO, k0_pay1 (View.ld xh rH) (View.ld xw rW) (View.ld xb rB)⟩]

/-- The one store covers the block. -/
theorem cover_out (p0 : Vec F S5000x128 .f32) (y : S5000x128.Idx) :
    ∃ pc ∈ ([⟨rO, p0⟩] : List (View.Piece (Elt F) S5000x128 .f32)), y ∈ pc.1.set :=
  View.cover_of_tiled [⟨rO, p0⟩] S5000x128.size (by rfl) y

set_option maxHeartbeats 1000000 in
/-- The body on whole buffers — the three inputs at known contents, the result buffer at anything — runs to
    the end leaving the inputs as they were and the result buffer at `outBlk` of them. -/
theorem sound_kernel (c : Dev nD) (E : Set ℕ) (i : grid0.Coords)
    (arg1 : Memref sig .tc .vmem S5000x384 .f32) (harg1 : arg1.IsWhole)
    (arg2 : Memref sig .tc .vmem S384x128 .f32) (harg2 : arg2.IsWhole)
    (arg3 : Memref sig .tc .vmem S1x128 .f32) (harg3 : arg3.IsWhole)
    (arg4 : Memref sig .tc .vmem S5000x128 .f32) (harg4 : arg4.IsWhole)
    (xh : Vec F S5000x384 .f32) (xw : Vec F S384x128 .f32) (xb : Vec F S1x128 .f32) (K : PUnit → sProp 𝕄) :
    iprop(owns (c : Thread nD τ) arg1 fullShare xh ∗ owns (c : Thread nD τ) arg2 fullShare xw ∗ owns (c : Thread nD τ) arg3 fullShare xb
        ∗ (∃ d, owns (c : Thread nD τ) arg4 fullShare d)
        ∗ (iprop(owns (c : Thread nD τ) arg1 fullShare xh ∗ owns (c : Thread nD τ) arg2 fullShare xw ∗ owns (c : Thread nD τ) arg3 fullShare xb
            ∗ owns (c : Thread nD τ) arg4 fullShare (outBlk xh xw xb)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _)

/-! ## The proof data of the tiled region -/

/-- On core `c`: the arrays as the region finds them; after the body at point `t` each input buffer still at
    its block and the result buffer at `outBlk` of the three blocks; nothing carried between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlk (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_h (c : Dev nD) (t : Fin cfg0.N) : (dats m 0 c).after 0 t = iblk m c 0 t := by dsimp only [dats]
theorem after_w (c : Dev nD) (t : Fin cfg0.N) : (dats m 0 c).after 1 t = iblk m c 1 t := by dsimp only [dats]
theorem after_b (c : Dev nD) (t : Fin cfg0.N) : (dats m 0 c).after 2 t = iblk m c 2 t := by dsimp only [dats]
theorem after_out (c : Dev nD) (t : Fin cfg0.N) :
    (dats m 0 c).after 3 t = outBlk (iblk m c 0 t) (iblk m c 1 t) (iblk m c 2 t) := by dsimp only [dats]

theorem before_h (c : Dev nD) (t : Fin cfg0.N) (d) : (dats m 0 c).before 0 t d = iblk m c 0 t :=
  before_h_of m (dats m 0 c) (A_eq m c 0) (after_h m c) t d
theorem before_w (c : Dev nD) (t : Fin cfg0.N) (d) : (dats m 0 c).before 1 t d = iblk m c 1 t :=
  before_w_of m (dats m 0 c) (A_eq m c 1) (after_w m c) t d
theorem before_b (c : Dev nD) (t : Fin cfg0.N) (d) : (dats m 0 c).before 2 t d = iblk m c 2 t :=
  before_b_of m (dats m 0 c) (A_eq m c 2) (after_b m c) t d

/-! ## The body at a grid point -/

/-- What the body is handed at point `t`, the four windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_h, before_w, before_b]
  rw [show (dats m 0 c).Φ t.succ = (dats m 0 c).Φ t.castSucc from rfl,
    show (dats m 0 c).owesAt () t.succ = (dats m 0 c).owesAt () t.castSucc from rfl,
    after_h, after_w, after_b, after_out]
  iintro ⟨HΦ, Ho, ⟨%d0, H0⟩, ⟨%d1, H1⟩, ⟨%d2, H2⟩, ⟨%d3, H3⟩⟩
  iapply (sound_kernel c Set.univ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program terminates, faulting nowhere, with the region's four arrays at what
    the blocks written back make of them and every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end and leaves its four arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Linear

end
-- ==== Proof.LinearRunIdeal.lean ====
/-
  The run of the program around its one tiled linear layer: fifty host operations build the
  concatenated features h = [x | P₁ | P₂] (50000 × 384), the transposed weights Wᵀ (384 × 128) and the bias as
  a row (1 × 128); then ten grid points each take 5000 rows of h, the whole of Wᵀ and the bias row, and write
  5000 rows of the result, h_blk · Wᵀ + bias.  Stated at any float instance.

  What is proved here: what every buffer holds when the tiled region is entered (`V`: the host operations
  folded over the launch memory, the four arguments untouched); what a point's body leaves in the result
  block as a function of the three blocks it reads (`outBlk`); and from these the run of the whole program,
  ending with the result array assembled from the ten blocks and every argument as it was launched.
-/
import proofs.«104381_j5179730559346_1_alg».proof.Proof.Gen.KernelIdeal.Launch
import proofs.«104381_j5179730559346_1_alg».proof.Proof.Gen.KernelIdeal.Skeleton
import proofs.«104381_j5179730559346_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Linear

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the tiled region -/

/-- What core `c`'s buffers hold when the tiled region is entered: the fifty host operations applied, in
    order, to the launch memory. -/
abbrev V (c : Dev nD) (b : Ref sig .tc) : Buf (Elt F) ((c : Thread nD τ).loc b) :=
  StableHlo.after hostOps0 (fun b => m (c, b)) b

/-- None of the host operations allocates a buffer. -/
theorem hostOps0_fresh : (hostOps0 : List (HloOp τ sig (Elt F))).Forall fun op => op.fresh = ∅ := by
  simp only [List.Forall]; repeat' constructor

/-- The program is its host operations followed by the tiled region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Every host operation writes one buffer of its own, never an argument: the node features are as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- The edge list is as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- The weights are as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- The bias is as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-! ## The blocks the grid points read -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The 5000 rows of features a point works on are in its buffer at every point. -/
theorem before_h_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The transposed weights, fetched once, stay in their buffer at every point. -/
theorem before_w_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The bias row, fetched once, stays in its buffer at every point. -/
theorem before_b_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The arguments after the run, from the run's post -/

/-- From a run that ends with every array of the region at the proof data's contents and every other buffer as
    the region found it, the four arguments end as launched: none is an array of the region, and no host
    operation wrote one. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) h

/-! ## What a point's body leaves in the result block -/

abbrev rH : Rect S5000x384 := Rect.unit (s := S5000x384) ![0, 0] S5000x384.size inb_S5000x384_S5000x384_0_0
abbrev rW : Rect S384x128 := Rect.unit (s := S384x128) ![0, 0] S384x128.size inb_S384x128_S384x128_0_0
abbrev rB : Rect S1x128 := Rect.unit (s := S1x128) ![0, 0] S1x128.size inb_S1x128_S1x128_0_0
abbrev rO : Rect S5000x128 := Rect.unit (s := S5000x128) ![0, 0] S5000x128.size inb_S5000x128_S5000x128_0_0

/-- The result block after the body: its one store, over the whole block, of the product of the feature rows
    with the transposed weights plus the bias row. -/
def outBlk (xh : Vec F S5000x384 .f32) (xw : Vec F S384x128 .f32) (xb : Vec F S1x128 .f32) : Vec F S5000x128 .f32 :=
  View.canon [⟨rO, k0_pay1 (View.ld xh rH) (View.ld xw rW) (View.ld xb rB)⟩]

/-- The one store covers the block. -/
theorem cover_out (p0 : Vec F S5000x128 .f32) (y : S5000x128.Idx) :
    ∃ pc ∈ ([⟨rO, p0⟩] : List (View.Piece (Elt F) S5000x128 .f32)), y ∈ pc.1.set :=
  View.cover_of_tiled [⟨rO, p0⟩] S5000x128.size (by rfl) y

set_option maxHeartbeats 1000000 in
/-- The body on whole buffers — the three inputs at known contents, the result buffer at anything — runs to
    the end leaving the inputs as they were and the result buffer at `outBlk` of them. -/
theorem sound_kernel (c : Dev nD) (E : Set ℕ) (i : grid0.Coords)
    (arg1 : Memref sig .tc .vmem S5000x384 .f32) (harg1 : arg1.IsWhole)
    (arg2 : Memref sig .tc .vmem S384x128 .f32) (harg2 : arg2.IsWhole)
    (arg3 : Memref sig .tc .vmem S1x128 .f32) (harg3 : arg3.IsWhole)
    (arg4 : Memref sig .tc .vmem S5000x128 .f32) (harg4 : arg4.IsWhole)
    (xh : Vec F S5000x384 .f32) (xw : Vec F S384x128 .f32) (xb : Vec F S1x128 .f32) (K : PUnit → sProp 𝕄) :
    iprop(owns (c : Thread nD τ) arg1 fullShare xh ∗ owns (c : Thread nD τ) arg2 fullShare xw ∗ owns (c : Thread nD τ) arg3 fullShare xb
        ∗ (∃ d, owns (c : Thread nD τ) arg4 fullShare d)
        ∗ (iprop(owns (c : Thread nD τ) arg1 fullShare xh ∗ owns (c : Thread nD τ) arg2 fullShare xw ∗ owns (c : Thread nD τ) arg3 fullShare xb
            ∗ owns (c : Thread nD τ) arg4 fullShare (outBlk xh xw xb)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _)

/-! ## The proof data of the tiled region -/

/-- On core `c`: the arrays as the region finds them; after the body at point `t` each input buffer still at
    its block and the result buffer at `outBlk` of the three blocks; nothing carried between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlk (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_h (c : Dev nD) (t : Fin cfg0.N) : (dats m 0 c).after 0 t = iblk m c 0 t := by dsimp only [dats]
theorem after_w (c : Dev nD) (t : Fin cfg0.N) : (dats m 0 c).after 1 t = iblk m c 1 t := by dsimp only [dats]
theorem after_b (c : Dev nD) (t : Fin cfg0.N) : (dats m 0 c).after 2 t = iblk m c 2 t := by dsimp only [dats]
theorem after_out (c : Dev nD) (t : Fin cfg0.N) :
    (dats m 0 c).after 3 t = outBlk (iblk m c 0 t) (iblk m c 1 t) (iblk m c 2 t) := by dsimp only [dats]

theorem before_h (c : Dev nD) (t : Fin cfg0.N) (d) : (dats m 0 c).before 0 t d = iblk m c 0 t :=
  before_h_of m (dats m 0 c) (A_eq m c 0) (after_h m c) t d
theorem before_w (c : Dev nD) (t : Fin cfg0.N) (d) : (dats m 0 c).before 1 t d = iblk m c 1 t :=
  before_w_of m (dats m 0 c) (A_eq m c 1) (after_w m c) t d
theorem before_b (c : Dev nD) (t : Fin cfg0.N) (d) : (dats m 0 c).before 2 t d = iblk m c 2 t :=
  before_b_of m (dats m 0 c) (A_eq m c 2) (after_b m c) t d

/-! ## The body at a grid point -/

/-- What the body is handed at point `t`, the four windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_h, before_w, before_b]
  rw [show (dats m 0 c).Φ t.succ = (dats m 0 c).Φ t.castSucc from rfl,
    show (dats m 0 c).owesAt () t.succ = (dats m 0 c).owesAt () t.castSucc from rfl,
    after_h, after_w, after_b, after_out]
  iintro ⟨HΦ, Ho, ⟨%d0, H0⟩, ⟨%d1, H1⟩, ⟨%d2, H2⟩, ⟨%d3, H3⟩⟩
  iapply (sound_kernel c Set.univ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program terminates, faulting nowhere, with the region's four arrays at what
    the blocks written back make of them and every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end and leaves its four arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Linear

end
-- ==== Proof.DenseSpec.lean ====
/-
  What the final layer computes, as one function of three arrays: entry (r, c) of the result is row r of the
  features against column c of the transposed weights, plus entry c of the bias row,
      out[r, c] = Σ_{k < 384} h[r, k] · wt[k, c] + b[0, c].
  Stated over literal extents, on the extended reals.
-/
import Idealize.ShloMosaic.PureOps.Ideal
import Idealize.ShloMosaic.Lib.ValueIdx

noncomputable section

open scoped BigOperators

namespace Cert.DenseSpec

open Idealize.ShloMosaic Idealize.ShloMosaic.ValueIdx

/-- Entry (r, c) of the dense layer. -/
def denseAt (h : (⟨2, ![50000, 384]⟩ : Shape).Idx → EReal) (wt : (⟨2, ![384, 128]⟩ : Shape).Idx → EReal)
    (b : (⟨2, ![1, 128]⟩ : Shape).Idx → EReal) (r : Fin 50000) (c : Fin 128) : EReal :=
  (∑ k : Fin 384, h (ix2 r k) * wt (ix2 k c)) + b (ix2 (0 : Fin 1) c)

/-- The dense layer's whole result. -/
def dense (h : (⟨2, ![50000, 384]⟩ : Shape).Idx → EReal) (wt : (⟨2, ![384, 128]⟩ : Shape).Idx → EReal)
    (b : (⟨2, ![1, 128]⟩ : Shape).Idx → EReal) : (⟨2, ![50000, 128]⟩ : Shape).Idx → EReal :=
  fun i => denseAt h wt b (i 0) (i 1)

theorem dense_ix2 (h : (⟨2, ![50000, 384]⟩ : Shape).Idx → EReal) (wt : (⟨2, ![384, 128]⟩ : Shape).Idx → EReal)
    (b : (⟨2, ![1, 128]⟩ : Shape).Idx → EReal) (r : Fin 50000) (c : Fin 128) :
    dense h wt b (ix2 r c) = denseAt h wt b r c := rfl

end Cert.DenseSpec

end
-- ==== Proof.LibPlainDot.lean ====
/-
  General facts about the shapes a row-wise dense layer meets, on the extended reals: a rows-by-columns matrix product
  read at one entry as a sum over the shared axis; a column broadcast across the columns; a bias vector laid along the
  rows.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.LibPlainDot

open Idealize.ShloMosaic Idealize.ShloMosaic.ValueIdx

/-- The contraction sum of an `M×K` by `K×N` product at entry `(p, j)` is `∑ₖ l(p,k)·r(k,j)`: the one contracted axis
    is re-indexed by its coordinate; the left operand is read at the entry's row and the right at its column (the four
    hypotheses say so of the dimension numbers, coordinate by coordinate). -/
theorem sum_plain {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (l : (⟨2, ![M, K]⟩ : Shape).Idx → EReal) (r : (⟨2, ![K, N]⟩ : Shape).Idx → EReal) (p : Fin M) (j : Fin N) :
    ∑ q : D.contr.Idx, l (D.lhsIdx (ix2 p j) q) * r (D.rhsIdx (ix2 p j) q) = ∑ k : Fin K, l (ix2 p k) * r (ix2 k j) := by
  rw [← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

/-- A matrix product accumulated into zeros, read at entry `(p, j)`. -/
theorem matmul_plain_apply {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (prec : Option ContractPrecision)
    (l : FVec Ideal ⟨2, ![M, K]⟩ .f32) (r : FVec Ideal ⟨2, ![K, N]⟩ .f32) (p : Fin M) (j : Fin N) :
    FloatOps.matmul D prec l r (constant (F := Ideal) ⟨2, ![M, N]⟩ .f32 0x00000000#32) (ix2 p j)
      = ∑ k : Fin K, l (ix2 p k) * r (ix2 k j) := by
  rw [Ideal.matmul_constant_zero_apply]
  exact sum_plain D hr hs hl0 hl1 hr0 hr1 l r p j

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A bias vector `[b]` viewed as one row `[1, b]` and laid along `a` rows reads, at `(p, c)`, its entry `c`. -/
theorem bias_row_apply {a b : ℕ} (x : (⟨1, ![b]⟩ : Shape).Idx → α)
    (h : (⟨1, ![b]⟩ : Shape).ShapeCasts ⟨2, ![1, b]⟩) (h' : (⟨2, ![1, b]⟩ : Shape).Broadcasts ⟨2, ![a, b]⟩)
    (p : Fin a) (c : Fin b) :
    broadcastTo ⟨2, ![a, b]⟩ (shapeCast ⟨2, ![1, b]⟩ x h) h' (ix2 p c) = x (ix1 c) := by
  rw [broadcastTo_1b_ab_apply, shapeCast_a_1a_apply]

/-- The word of all zero bits is the real number zero. -/
theorem scalar_zero : (Scalar.ofBits (F := Ideal) .f32 0x00000000#32 : Ideal .f32) = (0 : EReal) :=
  Ideal.ofBits_zero_f32

end Cert.LibPlainDot

end
-- ==== Proof.LinearValue.lean ====
/-
  The value of the tiled linear layer on the extended reals.  A grid point `t` holds rows 5000·t … 5000·t + 4999
  of the features, all of the transposed weights and the bias row; its body stores, at entry (p, q) of its block,
      Σ_{k < 384} h_blk[p, k] · wt[k, q] + b[0, q]
  (a matrix product into zeros is the plain sum, a change of float format is the identity on the extended reals,
  and the bias row is laid along the rows).  That is entry (5000·t + p, q) of the dense layer of the whole arrays;
  the ten blocks tile the 50000 × 128 result — row r lies in block r / 5000 — so after the run the result array
  IS the dense layer of the three arrays the region found.
-/
import proofs.«104381_j5179730559346_1_alg».proof.Proof.LinearRunIdeal
import proofs.«104381_j5179730559346_1_alg».proof.Proof.DenseSpec
import proofs.«104381_j5179730559346_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.LinearValue

open Cert.KernelIdeal Cert.KernelIdeal.Gen Cert.KernelIdeal.Linear
open Idealize.ShloMosaic Idealize.ShloMosaic.TcCoe Idealize.SL.Sem Idealize.ShloMosaic.ValueIdx
open Idealize.ShloMosaic.Pipeline (Dat)
open Cert.DenseSpec

variable (m : (ℓ : Loc nD τ sig) → Buf (Elt Ideal) ℓ) (ρ : Dev nD → PrngReg)

/-! ## The body's stored value at an entry -/

theorem hz : (![0, 0] : Fin 2 → Nat) = fun _ => 0 := funext fun a => by fin_cases a <;> rfl

/-- The product's left operand is read at the entry's row … -/
theorem lhs_dot_0 (i : S5000x128.Idx) (q : dot_S5000x384_S384x128_S5000x128_1_0_0_1_n_n.contr.Idx) :
    (dot_S5000x384_S384x128_S5000x128_1_0_0_1_n_n.lhsIdx i q 0).val = (i 0).val := by
  unfold DotDims.lhsIdx
  rw [dif_neg (show ¬(0 : Fin S5000x384.rank) ∈ dot_S5000x384_S384x128_S5000x128_1_0_0_1_n_n.lhsBatch by decide), dif_pos (show (0 : Fin S5000x384.rank) ∈ dot_S5000x384_S384x128_S5000x128_1_0_0_1_n_n.lhsNonContracting by decide)]
  rfl
/-- … and at the contracted coordinate; -/
theorem lhs_dot_1 (i : S5000x128.Idx) (q : dot_S5000x384_S384x128_S5000x128_1_0_0_1_n_n.contr.Idx) :
    (dot_S5000x384_S384x128_S5000x128_1_0_0_1_n_n.lhsIdx i q 1).val = (q ⟨0, by decide⟩).val :=
  dot_S5000x384_S384x128_S5000x128_1_0_0_1_n_n.lhsIdx_val_of_single rfl i q
/-- the right operand at the contracted coordinate … -/
theorem rhs_dot_0 (i : S5000x128.Idx) (q : dot_S5000x384_S384x128_S5000x128_1_0_0_1_n_n.contr.Idx) :
    (dot_S5000x384_S384x128_S5000x128_1_0_0_1_n_n.rhsIdx i q 0).val = (q ⟨0, by decide⟩).val :=
  dot_S5000x384_S384x128_S5000x128_1_0_0_1_n_n.rhsIdx_val_of_single rfl i q
/-- … and at the entry's column. -/
theorem rhs_dot_1 (i : S5000x128.Idx) (q : dot_S5000x384_S384x128_S5000x128_1_0_0_1_n_n.contr.Idx) :
    (dot_S5000x384_S384x128_S5000x128_1_0_0_1_n_n.rhsIdx i q 1).val = (i 1).val := by
  unfold DotDims.rhsIdx
  rw [dif_neg (show ¬(1 : Fin S384x128.rank) ∈ dot_S5000x384_S384x128_S5000x128_1_0_0_1_n_n.rhsBatch by decide), dif_pos (show (1 : Fin S384x128.rank) ∈ dot_S5000x384_S384x128_S5000x128_1_0_0_1_n_n.rhsNonContracting by decide)]
  rfl

/-- What the body stores at entry (p, q) of its block: the row of the feature block against the column of the
    weights, plus the bias row's entry. -/
theorem pay_apply (xh : Vec Ideal S5000x384 .f32) (xw : Vec Ideal S384x128 .f32) (xb : Vec Ideal S1x128 .f32)
    (p : Fin 5000) (q : Fin 128) :
    k0_pay1 (F := Ideal) xh xw xb (ix2 p q) = (∑ k : Fin 384, xh (ix2 p k) * xw (ix2 k q)) + xb (ix2 (0 : Fin 1) q) := by
  unfold k0_pay1
  simp only [matmul]
  rw [shapeCast_self xh, shapeCast_self xw, shapeCast_self xb]
  refine (addf_apply _ _ _).trans (congrArg₂ (· + ·) ?_ ?_)
  · rw [Ideal.matmul_constant_zero_apply]
    exact Cert.LibPlainDot.sum_plain dot_S5000x384_S384x128_S5000x128_1_0_0_1_n_n rfl rfl lhs_dot_0 lhs_dot_1 rhs_dot_0 rhs_dot_1 _ _ p q
  · exact broadcastTo_1b_ab_apply _ _ p q

/-! ## What a point writes back -/

/-- The index maps over the grid: the feature and result blocks move down with the point; the weights and the bias
    row stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Point `t` writes back block `t` of the dense layer of the arrays the region found. -/
theorem flushed_out (c : Dev nD) (t : Fin cfg0.N) :
    (dats m 0 c).flushed 3 t
      = ((cfg0.win 3).blk t).view.read (Elt Ideal) (dense (V m c main_v37) (V m c main_v38) (V m c main_v39)) := by
  show (cfg0.win 3).cut (grid0.coords t) ((dats m 0 c).after 3 t) = _
  rw [after_out]
  unfold outBlk
  rw [View.canon_unit_zero hz]
  simp only [View.ld_unit_zero (S := S5000x384) hz, View.ld_unit_zero (S := S384x128) hz, View.ld_unit_zero (S := S1x128) hz]
  obtain ⟨e00, e01, e10, e11, e20, e21, e30, e31⟩ := idx_facts t
  have ht : t.val < 10 := lt_of_lt_of_eq t.isLt N_0
  funext j
  obtain ⟨p, q, rfl⟩ : ∃ (p : Fin 5000) (q : Fin 128), j = ix2 p q := ⟨j 0, j 1, eq_ix2 j⟩
  have hp : p.val < 5000 := p.isLt
  show k0_pay1 (F := Ideal) (iblk m c 0 t) (iblk m c 1 t) (iblk m c 2 t) (ix2 p q)
    = dense (V m c main_v37) (V m c main_v38) (V m c main_v39) (((cfg0.win 3).blk t).view.emb (ix2 p q))
  have e3 : ((cfg0.win 3).blk t).view.emb (ix2 p q) = ix2 (⟨t.val * 5000 + p.val, by omega⟩ : Fin 50000) q :=
    funext fun a => Fin.ext (by
      match a with
      | ⟨0, _⟩ => show win0_3.index t (0 : Fin 2) * 5000 + 1 * p.val = t.val * 5000 + p.val; omega
      | ⟨1, _⟩ => show win0_3.index t (1 : Fin 2) * 128 + 1 * q.val = q.val; omega)
  rw [e3, dense_ix2]
  refine (pay_apply _ _ _ p q).trans ?_
  unfold denseAt
  refine congrArg₂ (· + ·) (Finset.sum_congr rfl fun k _ => congrArg₂ (· * ·) ?_ ?_) ?_
  · show V m c main_v37 (((cfg0.win 0).blk t).view.emb (ix2 p k)) = V m c main_v37 (ix2 (⟨t.val * 5000 + p.val, by omega⟩ : Fin 50000) k)
    refine congrArg (V m c main_v37) (funext fun a => Fin.ext ?_)
    match a with
    | ⟨0, _⟩ => show win0_0.index t (0 : Fin 2) * 5000 + 1 * p.val = t.val * 5000 + p.val; omega
    | ⟨1, _⟩ => show win0_0.index t (1 : Fin 2) * 384 + 1 * k.val = k.val; omega
  · show V m c main_v38 (((cfg0.win 1).blk t).view.emb (ix2 k q)) = V m c main_v38 (ix2 k q)
    refine congrArg (V m c main_v38) (funext fun a => Fin.ext ?_)
    match a with
    | ⟨0, _⟩ => show win0_1.index t (0 : Fin 2) * 384 + 1 * k.val = k.val; omega
    | ⟨1, _⟩ => show win0_1.index t (1 : Fin 2) * 128 + 1 * q.val = q.val; omega
  · show V m c main_v39 (((cfg0.win 2).blk t).view.emb (ix2 (0 : Fin 1) q)) = V m c main_v39 (ix2 (0 : Fin 1) q)
    refine congrArg (V m c main_v39) (funext fun a => Fin.ext ?_)
    match a with
    | ⟨0, _⟩ => show win0_2.index t (0 : Fin 2) * 1 + 1 * (0 : Fin 1).val = (0 : Fin 1).val; omega
    | ⟨1, _⟩ => show win0_2.index t (1 : Fin 2) * 128 + 1 * q.val = q.val; omega

/-! ## The ten blocks tile the result -/

/-- An index of the result array is in point `t`'s block iff each coordinate is in the block's range on its axis. -/
theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v40).slice (win0_3.rect t)).set ↔ _
  rw [View.set_slice_whole, Rect.mem_set_unit]
  exact Iff.rfl

/-- Every one of the ten row-blocks is some point's. -/
theorem idx_onto : ∀ q0 : Fin 10, ∃ t : Fin cfg0.N, win0_3.index t = ![q0.val, 0] :=
  (by decide +kernel : ∀ q0 : Fin 10, ∃ t : Fin grid0.N, win0_3.index t = ![q0.val, 0])

/-- Row r of the result lies in the block of point r / 5000. -/
theorem covered (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := idx_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The result array after the run is the dense layer of the arrays the region found. -/
theorem final_out (c : Dev nD) :
    (dats m 0 c).arrAt 3 cfg0.N = dense (V m c main_v37) (V m c main_v38) (V m c main_v39) :=
  (dats m 0 c).arrAt_eq_of_cover 3 _ (fun t _ => flushed_out m c t) covered

/-! ## The run, read -/

/-- The program runs to the end with the result array at the dense layer of the arrays the region found, and the
    four arguments as launched. -/
theorem run : θ_run defs (onTc (τ := τ) (main (F := Ideal))) ⟨m, fun _ => 0, ρ⟩ fun r => ∀ c : Dev nD,
      r.2.mem ((c.tc : Thread nD τ).loc main_v40) = dense (V m c main_v37) (V m c main_v38) (V m c main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h c).1 3).trans (final_out m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.KernelIdeal.LinearValue

end
-- ==== Proof.Features.lean ====
/-
  What the host operations before the tiled layer compute, as functions of the arguments.  With `e` the edge list
  (row 0 the sources, row 1 the targets):
    deg[n]    = Σ over edges with target n of 1                       (a scatter-add of ones into zeros)
    inv[n, j] = 1 / max(deg[n], 1)                                    (computed once, laid out across the row)
    hop p     = (scatter-add over targets of the rows of p gathered at the sources) · inv
    h         = [ x | hop x | hop (hop x) ]                           (50000 × 384)
  together with the transposed weights and the bias viewed as one row.  The tiled layer's three input arrays
  hold exactly these when it is entered.
-/
import proofs.«104381_j5179730559346_1_alg».proof.Proof.LinearRunIdeal
import Idealize.ShloMosaic.Lib.StableHlo.Run

noncomputable section

namespace Cert.KernelIdeal.Feat

open Cert.KernelIdeal Cert.KernelIdeal.Gen Cert.KernelIdeal.Linear
open Idealize.ShloMosaic Idealize.ShloMosaic.TcCoe Idealize.SL.Sem Idealize.ShloMosaic.StableHlo

variable {F : FTy → Type} [FloatOps F]

/-- The edges' source nodes. -/
def src (e : (⟨S2x800000, .i32⟩ : BufTy).Contents (Elt F)) : (⟨S800000, .i32⟩ : BufTy).Contents (Elt F) :=
  shapeCast _ (extractStridedSlice S1x800000 ![0, 0] e slices_S2x800000_S1x800000_0_0) shapeCasts_S1x800000_S800000
/-- The edges' target nodes. -/
def dst (e : (⟨S2x800000, .i32⟩ : BufTy).Contents (Elt F)) : (⟨S800000, .i32⟩ : BufTy).Contents (Elt F) :=
  shapeCast _ (extractStridedSlice S1x800000 ![1, 0] e slices_S2x800000_S1x800000_1_0) shapeCasts_S1x800000_S800000
/-- The sources as gather indices: a negative source counts from the end. -/
def srcIdx (e : (⟨S2x800000, .i32⟩ : BufTy).Contents (Elt F)) : (⟨S800000x1, .i32⟩ : BufTy).Contents (Elt F) :=
  broadcastInDim S800000x1 ![0] bcast_S800000_S800000x1_0
    (select (cmpi .slt (src e) (broadcastInDim S800000 ![] bcast_S_S800000 (constantI S_ 32 0#32)))
      (addi (src e) (broadcastInDim S800000 ![] bcast_S_S800000 (constantI S_ 32 50000#32))) (src e))
/-- The targets as scatter indices. -/
def dstIdx (e : (⟨S2x800000, .i32⟩ : BufTy).Contents (Elt F)) : (⟨S800000x1, .i32⟩ : BufTy).Contents (Elt F) :=
  broadcastInDim S800000x1 ![0] bcast_S800000_S800000x1_0 (dst e)
/-- One per node. -/
def onesN : (⟨S50000, .f32⟩ : BufTy).Contents (Elt F) :=
  broadcastInDim S50000 ![] bcast_S_S50000 (constant S_ .f32 0x3F800000#32)
/-- The in-degree of every node. -/
def deg (e : (⟨S2x800000, .i32⟩ : BufTy).Contents (Elt F)) : (⟨S50000, .f32⟩ : BufTy).Contents (Elt F) :=
  Host.scatterAdd scatter_S50000_S800000x1_S800000_n_0_0_1
    (broadcastInDim S50000 ![] bcast_S_S50000 (constant S_ .f32 0x00000000#32)) (dstIdx e)
    (broadcastInDim S800000 ![] bcast_S_S800000 (constant S_ .f32 0x3F800000#32))
/-- The reciprocal of the clamped in-degree, one column, laid out across the 128 features. -/
def invDeg (e : (⟨S2x800000, .i32⟩ : BufTy).Contents (Elt F)) : (⟨S50000x128, .f32⟩ : BufTy).Contents (Elt F) :=
  broadcastInDim S50000x128 ![0, 1] bcast_S50000x1_S50000x128_0_1
    (broadcastInDim S50000x1 ![0] bcast_S50000_S50000x1_0 (Host.divf (onesN (F := F)) (maximumf (deg e) (onesN (F := F)))))
/-- Per node, the sum over its incoming edges of the source's row of `p`. -/
def summed (p : (⟨S50000x128, .f32⟩ : BufTy).Contents (Elt F)) (e : (⟨S2x800000, .i32⟩ : BufTy).Contents (Elt F)) :
    (⟨S50000x128, .f32⟩ : BufTy).Contents (Elt F) :=
  Host.scatterAdd scatter_S50000x128_S800000x1_S800000x128_1_0_0_1
    (broadcastInDim S50000x128 ![] bcast_S_S50000x128 (constant S_ .f32 0x00000000#32)) (dstIdx e)
    (Host.gather gather_S50000x128_S800000x1_S800000x128_1_0_n_n_0_1_1128 p (srcIdx e))
/-- One mean-aggregation hop: the sums scaled by the reciprocal degree. -/
def hop (p : (⟨S50000x128, .f32⟩ : BufTy).Contents (Elt F)) (e : (⟨S2x800000, .i32⟩ : BufTy).Contents (Elt F)) :
    (⟨S50000x128, .f32⟩ : BufTy).Contents (Elt F) :=
  mulf (summed p e) (invDeg e)
/-- The features: the node features beside one hop and two hops of them. -/
def feat (x : (⟨S50000x128, .f32⟩ : BufTy).Contents (Elt F)) (e : (⟨S2x800000, .i32⟩ : BufTy).Contents (Elt F)) :
    (⟨S50000x384, .f32⟩ : BufTy).Contents (Elt F) :=
  concatenate S50000x384 1 [⟨S50000x128, x⟩, ⟨S50000x128, hop x e⟩, ⟨S50000x128, hop (hop x e) e⟩]
    concatenates_S50000x128_S50000x128_S50000x128_S50000x384_d1
/-- The weights transposed. -/
def wT (w : (⟨S128x384, .f32⟩ : BufTy).Contents (Elt F)) : (⟨S384x128, .f32⟩ : BufTy).Contents (Elt F) :=
  transpose S384x128 [1, 0] w transposes_S128x384_S384x128_1_0
/-- The bias as one row. -/
def bRow (b : (⟨S128, .f32⟩ : BufTy).Contents (Elt F)) : (⟨S1x128, .f32⟩ : BufTy).Contents (Elt F) :=
  shapeCast _ b shapeCasts_S128_S1x128

variable (m : (ℓ : Loc nD τ sig) → Buf (Elt F) ℓ)

set_option maxRecDepth 8192 in
set_option maxHeartbeats 4000000 in
/-- The layer's feature array, as the region finds it. -/
theorem V_feat (c : Dev nD) :
    (V m c main_v37 : S50000x384.Idx → Elt F .f32)
      = feat (m ((c.tc : Thread nD τ).loc main_arg0)) (m ((c.tc : Thread nD τ).loc main_arg1)) := by
  unfold feat hop summed invDeg deg onesN srcIdx dstIdx src dst
  dsimp only [V, hostOps0]; after_results; rfl
/-- The layer's weight array, as the region finds it. -/
theorem V_wT (c : Dev nD) :
    (V m c main_v38 : S384x128.Idx → Elt F .f32) = wT (m ((c.tc : Thread nD τ).loc main_arg2)) := by
  dsimp only [V, hostOps0]; after_results; rfl
/-- The layer's bias row, as the region finds it. -/
theorem V_bRow (c : Dev nD) :
    (V m c main_v39 : S1x128.Idx → Elt F .f32) = bRow (m ((c.tc : Thread nD τ).loc main_arg3)) := by
  dsimp only [V, hostOps0]; after_results; rfl

end Cert.KernelIdeal.Feat

end
-- ==== Proof.RefValue.lean ====
/-
  The reference side.  The plain jnp program ends with  h' @ Wᵀ + b,  where h' = [ x | P₁' | P₂' ] is built with
  divisions by the clamped degree.  Read one operation at a time, its result at entry (r, c) is
      Σ_{k < 384} h'[r, k] · Wᵀ[k, c] + b[c],
  that is, the dense layer of its own feature stage, its transposed weights and its bias laid out as a row.
-/
import proofs.«104381_j5179730559346_1_alg».proof.Defs
import proofs.«104381_j5179730559346_1_alg».proof.Proof.Gen.ReferenceIdeal.Run
import proofs.«104381_j5179730559346_1_alg».proof.Proof.Gen.ReferenceIdeal.Read
import proofs.«104381_j5179730559346_1_alg».proof.Proof.DenseSpec
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read
open Idealize.ShloMosaic Idealize.ShloMosaic.ValueIdx
open Cert.DenseSpec

/-- The reference's result is the dense layer of its feature stage, its transposed weights and its bias row: the
    host's matrix product at an entry is the sum over the shared axis, and the bias, broadcast twice, is read at the
    entry's column. -/
theorem result_is_dense (x : (⟨S50000x128, .f32⟩ : BufTy).Contents (Elt Ideal)) (e : (⟨S2x800000, .i32⟩ : BufTy).Contents (Elt Ideal))
    (w : (⟨S128x384, .f32⟩ : BufTy).Contents (Elt Ideal)) (b : (⟨S128, .f32⟩ : BufTy).Contents (Elt Ideal)) :
    val_main_v47 (F := Ideal) x e w b
      = dense (val_main_v42 (F := Ideal) x e) (val_main_v43 (F := Ideal) w) (val_main_v45 (F := Ideal) b) := by
  funext i
  obtain ⟨r, c, rfl⟩ : ∃ (r : Fin 50000) (c : Fin 128), i = ix2 r c := ⟨i 0, i 1, eq_ix2 i⟩
  have hl : ∀ k : Fin 384, lidx_main_v44 (ix2 r c) k = ix2 r k := fun k =>
    funext fun a => Fin.ext (by match a with | ⟨0, _⟩ => rfl | ⟨1, _⟩ => rfl)
  have hr : ∀ k : Fin 384, ridx_main_v44 (ix2 r c) k = ix2 k c := fun k =>
    funext fun a => Fin.ext (by match a with | ⟨0, _⟩ => rfl | ⟨1, _⟩ => rfl)
  have hb : idx_main_v46 (ix2 r c) = ix2 (0 : Fin 1) c :=
    funext fun a => Fin.ext (by match a with | ⟨0, _⟩ => rfl | ⟨1, _⟩ => rfl)
  rw [val_main_v47_apply, val_main_v44_apply, val_main_v46_apply, dense_ix2]
  simp only [hl, hr, hb]
  rfl

end Cert.ReferenceIdeal.RefValue

end
-- ==== Proof.MeanScale.lean ====
/-
  The one arithmetic fact that separates the two programs.  A mean over incoming edges divides a sum `a` by the
  clamped in-degree `d = max(deg, 1)`.  One program divides, `a / d`; the other computes the reciprocal `1 / d` once
  and multiplies, `a · (1 / d)`.  On the extended reals division by a nonzero `d` is `a · d⁻¹`, and `1 / d` is `d⁻¹`;
  since `d ≥ 1` it is never zero, whatever `deg` is (finite or not), so the two agree for every `a`, the
  infinities included: no finiteness of the inputs is needed.
-/
import Idealize.ShloMosaic.PureOps.Ideal
import Idealize.ShloMosaic.PureOps.IdealRules
import Idealize.ShloMosaic.Lib.ValueIdx

noncomputable section

namespace Cert.MeanScale

open Idealize.ShloMosaic

/-- The float word of `1.0` denotes the real number one. -/
theorem one_word : Ideal.ofBits .f32 0x3F800000#32 = (1 : EReal) := IdealRules.sign_bit.ideal_onePat .f32

/-- `a · (1 / max(x, 1)) = a / max(x, 1)` on the extended reals: the clamped degree is at least one, hence not zero,
    and off zero a quotient is the product with the inverse. -/
theorem mul_recip_clamped (a x : EReal) :
    a * Ideal.div (Ideal.ofBits .f32 0x3F800000#32) (max x (Ideal.ofBits .f32 0x3F800000#32))
      = Ideal.div a (max x (Ideal.ofBits .f32 0x3F800000#32)) := by
  rw [one_word]
  have hne : max x (1 : EReal) ≠ 0 := ne_of_gt (lt_of_lt_of_le zero_lt_one (le_max_right x 1))
  unfold Ideal.div
  rw [if_neg hne, if_neg hne, one_mul]

/-- The same for whole arrays: sums `s` (one row per node) scaled by the reciprocal clamped degree, laid out as a
    column and then across the row, are the sums divided by the clamped degree laid out the same way.  Both
    layouts read the degree array at one index that depends on the entry alone, so the scalar law applies entry
    by entry. -/
theorem scale_eq_divide {s0 sN sN1 sND : Shape}
    (dims0 : Fin s0.rank → Fin sN.rank) (h0 : s0.BroadcastsInDim sN dims0)
    (dims1 : Fin sN.rank → Fin sN1.rank) (h1 : sN.BroadcastsInDim sN1 dims1)
    (dims2 : Fin sN1.rank → Fin sND.rank) (h2 : sN1.BroadcastsInDim sND dims2)
    (s : FVec Ideal sND .f32) (d : FVec Ideal sN .f32) :
    mulf s (broadcastInDim sND dims2 h2 (broadcastInDim sN1 dims1 h1
        (Host.divf (broadcastInDim sN dims0 h0 (constant (F := Ideal) s0 .f32 0x3F800000#32))
          (maximumf d (broadcastInDim sN dims0 h0 (constant (F := Ideal) s0 .f32 0x3F800000#32))))))
      = Host.divf s (broadcastInDim sND dims2 h2 (broadcastInDim sN1 dims1 h1
        (maximumf d (broadcastInDim sN dims0 h0 (constant (F := Ideal) s0 .f32 0x3F800000#32))))) := by
  funext j
  exact mul_recip_clamped (s j) (d _)

end Cert.MeanScale

end
-- ==== Proof.Bridge.lean ====
/-
  The two programs build the same arrays for the final layer.
  * Features.  One hop of the kernel's program is  (sums) · (1 / max(deg, 1)),  one hop of the reference is
    (sums) / max(deg, 1);  the sums and the degree are the same scatter-adds and gathers of the same operands,
    so by the mean-scaling law (`Cert.MeanScale.scale_eq_divide`) a hop of the one is a hop of the other, applied to
    any array.  Two hops and the concatenation follow.
  * Weights: both transpose the same array.
  * Bias: one reshapes [128] to [1, 128], the other broadcasts it there; either way entry (0, c) is b[c].
-/
import proofs.«104381_j5179730559346_1_alg».proof.Proof.Features
import proofs.«104381_j5179730559346_1_alg».proof.Proof.MeanScale
import proofs.«104381_j5179730559346_1_alg».proof.Proof.Gen.ReferenceIdeal.Read
import Idealize.ShloMosaic.Lib.ValueIdx
import Idealize.ShloMosaic.Lib.ValueLayout

noncomputable section

namespace Cert.Bridge

open Idealize.ShloMosaic Idealize.ShloMosaic.ValueIdx
open Cert.ReferenceIdeal Cert.ReferenceIdeal.Gen Cert.ReferenceIdeal.Read

/-- The kernel's first hop is the reference's. -/
theorem hop_one (x : (⟨S50000x128, .f32⟩ : BufTy).Contents (Elt Ideal)) (e : (⟨S2x800000, .i32⟩ : BufTy).Contents (Elt Ideal)) :
    Cert.KernelIdeal.Feat.hop (F := Ideal) x e = val_main_v22 (F := Ideal) x e := by
  unfold Cert.KernelIdeal.Feat.hop Cert.KernelIdeal.Feat.invDeg Cert.KernelIdeal.Feat.onesN
  refine (Cert.MeanScale.scale_eq_divide _ _ _ _ _ _ _ _).trans ?_
  rfl

/-- The kernel's second hop, taken of the reference's first, is the reference's second. -/
theorem hop_two (x : (⟨S50000x128, .f32⟩ : BufTy).Contents (Elt Ideal)) (e : (⟨S2x800000, .i32⟩ : BufTy).Contents (Elt Ideal)) :
    Cert.KernelIdeal.Feat.hop (F := Ideal) (val_main_v22 (F := Ideal) x e) e = val_main_v41 (F := Ideal) x e := by
  unfold Cert.KernelIdeal.Feat.hop Cert.KernelIdeal.Feat.invDeg Cert.KernelIdeal.Feat.onesN
  refine (Cert.MeanScale.scale_eq_divide _ _ _ _ _ _ _ _).trans ?_
  rfl

/-- The two feature arrays are one. -/
theorem feat_eq (x : (⟨S50000x128, .f32⟩ : BufTy).Contents (Elt Ideal)) (e : (⟨S2x800000, .i32⟩ : BufTy).Contents (Elt Ideal)) :
    Cert.KernelIdeal.Feat.feat (F := Ideal) x e = val_main_v42 (F := Ideal) x e := by
  unfold Cert.KernelIdeal.Feat.feat
  rw [hop_one, hop_two]
  rfl

/-- The two transposed weight arrays are one. -/
theorem wT_eq (w : (⟨S128x384, .f32⟩ : BufTy).Contents (Elt Ideal)) :
    Cert.KernelIdeal.Feat.wT (F := Ideal) w = val_main_v43 (F := Ideal) w := rfl

/-- The two bias rows are one: entry (0, c) of either is b[c]. -/
theorem bRow_eq (b : (⟨S128, .f32⟩ : BufTy).Contents (Elt Ideal)) :
    Cert.KernelIdeal.Feat.bRow (F := Ideal) b = val_main_v45 (F := Ideal) b := by
  funext j
  obtain ⟨u, q, rfl⟩ : ∃ (u : Fin 1) (q : Fin 128), j = ix2 u q := ⟨j 0, j 1, eq_ix2 j⟩
  rw [val_main_v45_apply]
  unfold Cert.KernelIdeal.Feat.bRow
  refine (shapeCast_a_1a_apply b _ u q).trans (congrArg b (funext fun a => Fin.ext ?_))
  match a with
  | ⟨0, _⟩ => rfl

end Cert.Bridge

end
-- ==== Proof.lean ====
/-
  Two-hop mean aggregation over a graph followed by a linear layer, against its plain jnp reference, on the extended reals.

  Both programs compute, per node n with clamped in-degree d[n] = max(deg[n], 1),
      P₁ = mean over incoming edges of x,   P₂ = mean over incoming edges of P₁,   out = [x | P₁ | P₂] · Wᵀ + b.
  They differ in two ways only.  The reference divides each sum by d; the other program multiplies by the
  reciprocal 1 / d computed once — equal for every extended real because d ≥ 1 is never zero
  (Proof/MeanScale.lean).  And the reference takes one 50000 × 384 by 384 × 128 product on the host, while the
  other program runs the product in ten tiles of 5000 rows, narrowing its operands to a shorter float format
  first — on the extended reals a change of format is the identity and each tile's product into zeros is the same
  sum, so the ten tiles assemble to the same array (Proof/LinearValue.lean).  Gathers and scatter-adds are the same
  operations of the same operands on both sides and are never opened; no index range and no finiteness of the inputs
  is used.

  The frames: the reference is a straight line of host operations; the other program, at words and at extended
  reals alike, is fifty host operations and one tiled region whose body loads three blocks and stores one
  (Proof/LinearRun.lean, Proof/LinearRunIdeal.lean).  The idealization rewrote nothing, so `preserves` asks nothing.
-/
import proofs.«104381_j5179730559346_1_alg».proof.Defs
import proofs.«104381_j5179730559346_1_alg».proof.Proof.Gen.Kernel
import proofs.«104381_j5179730559346_1_alg».proof.Proof.Gen.KernelIdeal
import proofs.«104381_j5179730559346_1_alg».proof.Proof.Gen.ReferenceIdeal
import proofs.«104381_j5179730559346_1_alg».proof.Proof.Gen.Pre_finite_inputs
import proofs.«104381_j5179730559346_1_alg».proof.Proof.LinearRun
import proofs.«104381_j5179730559346_1_alg».proof.Proof.LinearRunIdeal
import proofs.«104381_j5179730559346_1_alg».proof.Proof.LinearValue
import proofs.«104381_j5179730559346_1_alg».proof.Proof.Features
import proofs.«104381_j5179730559346_1_alg».proof.Proof.RefValue
import proofs.«104381_j5179730559346_1_alg».proof.Proof.Bridge
import Idealize.ShloMosaic.Adequacy
import Idealize.ShloMosaic.Init

noncomputable section

namespace Cert.Proof

open Idealize.ShloMosaic Idealize.ShloMosaic.TcCoe Idealize.SL.Sem

/-- The word-level program runs to the end and leaves its arguments as launched. -/
theorem frame_k : Cert.frame_Kernel := fun m ρ _ => Cert.Kernel.Linear.frame m ρ

/-- So does the idealized program. -/
theorem frame_ki : Cert.frame_KernelIdeal := fun m ρ _ => Cert.KernelIdeal.Linear.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the four arguments both programs end with the dense layer of the same three arrays:
    the tiled program's result array is the dense layer of what its host operations built, the reference's result
    is the dense layer of its own stages, and the two triples of arrays are equal. -/
theorem algebraic : Cert.algebraic_KernelIdeal_ReferenceIdeal := by
  intro m ρ m' ρ' _ hagree
  refine ⟨fun c => Cert.DenseSpec.dense
      (Cert.KernelIdeal.Feat.feat (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      (Cert.KernelIdeal.Feat.wT (F := Ideal) (m ((c.tc : Thread Cert.KernelIdeal.nD Cert.KernelIdeal.τ).loc Cert.KernelIdeal.main_arg2)))
      (Cert.KernelIdeal.Feat.bRow (F := Ideal) (m ((c.tc : Thread Cert.KernelIdeal.nD Cert.KernelIdeal.τ).loc Cert.KernelIdeal.main_arg3))), ?_, ?_⟩
  · refine (θ_run Cert.KernelIdeal.defs _ _).mono (fun r h c => ⟨(h c).1.trans ?_, (h c).2⟩)
      (Cert.KernelIdeal.LinearValue.run m ρ)
    rw [Cert.KernelIdeal.Feat.V_feat, Cert.KernelIdeal.Feat.V_wT, Cert.KernelIdeal.Feat.V_bRow]
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v47_eq, Cert.ReferenceIdeal.RefValue.result_is_dense,
      (hagree c).1, (hagree c).2.1, (hagree c).2.2.1, (hagree c).2.2.2,
      ← Cert.Bridge.feat_eq, ← Cert.Bridge.wT_eq, ← Cert.Bridge.bRow_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
